-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : FVec F S128x64 .f32) (main_arg2 : FVec F S64 .f32) (main_arg3 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 60
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S2x1600000, .i32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000, .f32⟩
  | .hbm, ⟨18, _⟩ => ⟨S100000x64, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S1600000x1, .f32⟩
  | .hbm, ⟨48, _⟩ => ⟨S1600000x64, .f32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S100000, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S1x64, .f32⟩
  | .hbm, ⟨59, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S2x1600000, .i32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000, .f32⟩
  | .hbm, ⟨18, _⟩ => ⟨S100000x64, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S1600000x1, .f32⟩
  | .hbm, ⟨48, _⟩ => ⟨S1600000x64, .f32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S100000, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .i1⟩
  | .hbm, ⟨65, _⟩ => ⟨S_, .f32⟩
  | .hbm, ⟨66, _⟩ => ⟨S100000x64, .f32⟩
  | .hbm, ⟨67, _⟩ => ⟨S100000x64, .i1⟩
  | .hbm, ⟨68, _⟩ => ⟨S_, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_cst_0 : Ref sig .tc := ⟨.hbm, 65, rfl⟩
abbrev main_call0_v2 : Ref sig .tc := ⟨.hbm, 66, rfl⟩
abbrev main_call0_v3 : Ref sig .tc := ⟨.hbm, 67, rfl⟩
abbrev main_call0_cst_1 : Ref sig .tc := ⟨.hbm, 68, rfl⟩
abbrev main_call0_call0_v0 : Ref sig .tc := ⟨.hbm, 69, rfl⟩
abbrev main_call0_call0_v1 : Ref sig .tc := ⟨.hbm, 70, rfl⟩
abbrev main_call0_v4 : Ref sig .tc := ⟨.hbm, 71, rfl⟩
abbrev main_call0_v5 : Ref sig .tc := ⟨.hbm, 72, rfl⟩
abbrev main_call0_cst_2 : Ref sig .tc := ⟨.hbm, 73, rfl⟩
abbrev main_call0_v6 : Ref sig .tc := ⟨.hbm, 74, rfl⟩
abbrev main_call0_v7 : Ref sig .tc := ⟨.hbm, 75, rfl⟩
abbrev main_v48 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibFinite.lean ====
/- Finite extended reals. A value of the extended reals is FINITE when it is neither infinity, that is, when it is
   the image of a real number. The float operations read at the extended reals (sum, difference, product, quotient by a
   nonzero divisor, maximum, exponential, reciprocal square root of a positive argument, a choice between two values) keep
   finite values finite; this module states each closure fact once, together with the sign facts that go with them. -/
import Idealize.ShloMosaic.PureOps.Ideal
import Mathlib.Data.EReal.Operations
import Mathlib.Data.EReal.Inv
import Mathlib.Algebra.Order.BigOperators.Group.Finset

namespace Cert.LibFinite

open Idealize.ShloMosaic
open scoped BigOperators

/-- A finite extended real: neither `⊤` nor `⊥`. -/
def IsFin (x : EReal) : Prop := x ≠ ⊤ ∧ x ≠ ⊥

/-- The finite extended reals are exactly the real numbers. -/
theorem isFin_iff {x : EReal} : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

/-- A finite value is the coercion of its real part. -/
theorem IsFin.coe_toReal {x : EReal} (h : IsFin x) : ((x.toReal : ℝ) : EReal) = x :=
  EReal.coe_toReal h.1 h.2

theorem IsFin.ne_top {x : EReal} (h : IsFin x) : x ≠ ⊤ := h.1
theorem IsFin.ne_bot {x : EReal} (h : IsFin x) : x ≠ ⊥ := h.2

/-- A real number is finite. -/
theorem isFin_coe (r : ℝ) : IsFin (r : EReal) := ⟨EReal.coe_ne_top r, EReal.coe_ne_bot r⟩

theorem isFin_zero : IsFin (0 : EReal) := isFin_coe 0
theorem isFin_one : IsFin (1 : EReal) := isFin_coe 1

theorem IsFin.add {x y : EReal} (hx : IsFin x) (hy : IsFin y) : IsFin (x + y) := by
  obtain ⟨a, rfl⟩ := isFin_iff.mp hx
  obtain ⟨b, rfl⟩ := isFin_iff.mp hy
  rw [← EReal.coe_add]; exact isFin_coe _

theorem IsFin.neg {x : EReal} (hx : IsFin x) : IsFin (-x) := by
  obtain ⟨a, rfl⟩ := isFin_iff.mp hx
  rw [← EReal.coe_neg]; exact isFin_coe _

theorem IsFin.sub {x y : EReal} (hx : IsFin x) (hy : IsFin y) : IsFin (x - y) := by
  obtain ⟨a, rfl⟩ := isFin_iff.mp hx
  obtain ⟨b, rfl⟩ := isFin_iff.mp hy
  rw [← EReal.coe_sub]; exact isFin_coe _

theorem IsFin.mul {x y : EReal} (hx : IsFin x) (hy : IsFin y) : IsFin (x * y) := by
  obtain ⟨a, rfl⟩ := isFin_iff.mp hx
  obtain ⟨b, rfl⟩ := isFin_iff.mp hy
  rw [← EReal.coe_mul]; exact isFin_coe _

/-- A finite sum of finite values is finite. -/
theorem isFin_sum {ι : Type*} (s : Finset ι) (f : ι → EReal) (h : ∀ i ∈ s, IsFin (f i)) : IsFin (∑ i ∈ s, f i) :=
  Finset.sum_induction f IsFin (fun _ _ ha hb => ha.add hb) isFin_zero h

/-- The same over every index of `Fin n`. -/
theorem isFin_sum_univ {n : Nat} (f : Fin n → EReal) (h : ∀ i, IsFin (f i)) : IsFin (∑ i, f i) :=
  isFin_sum Finset.univ f fun i _ => h i

theorem IsFin.max {x y : EReal} (hx : IsFin x) (hy : IsFin y) : IsFin (max x y) := by
  rcases max_choice x y with h | h <;> rw [h] <;> assumption

theorem IsFin.min {x y : EReal} (hx : IsFin x) (hy : IsFin y) : IsFin (min x y) := by
  rcases min_choice x y with h | h <;> rw [h] <;> assumption

/-- A choice between two finite values is finite. -/
theorem IsFin.ite {c : Prop} [Decidable c] {x y : EReal} (hx : IsFin x) (hy : IsFin y) : IsFin (if c then x else y) := by
  split <;> assumption

/-- The same for a Boolean condition. -/
theorem IsFin.cond {c : Bool} {x y : EReal} (hx : IsFin x) (hy : IsFin y) : IsFin (bif c then x else y) := by
  cases c <;> assumption

/-- The exponential of a finite value is the real exponential. -/
theorem exp_coe (r : ℝ) : Ideal.exp (r : EReal) = ((Real.exp r : ℝ) : EReal) := rfl

theorem IsFin.exp {x : EReal} (hx : IsFin x) : IsFin (Ideal.exp x) := by
  obtain ⟨a, rfl⟩ := isFin_iff.mp hx
  rw [exp_coe]; exact isFin_coe _

/-- The exponential of a finite value is positive. -/
theorem IsFin.exp_pos {x : EReal} (hx : IsFin x) : 0 < Ideal.exp x := by
  obtain ⟨a, rfl⟩ := isFin_iff.mp hx
  rw [exp_coe]; exact EReal.coe_pos.mpr (Real.exp_pos a)

/-- The exponential is nonnegative at every extended real (`0` at `⊥`, `⊤` at `⊤`). -/
theorem exp_nonneg (x : EReal) : 0 ≤ Ideal.exp x := by
  induction x using EReal.rec with
  | bot => exact le_of_eq rfl
  | top => exact le_top
  | coe r => rw [exp_coe]; exact EReal.coe_nonneg.mpr (Real.exp_pos r).le

/-- The reciprocal square root of a positive real is the real reciprocal of its square root. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem IsFin.rsqrt {x : EReal} (hx : IsFin x) (hpos : 0 < x) : IsFin (Ideal.rsqrt x) := by
  obtain ⟨a, rfl⟩ := isFin_iff.mp hx
  rw [rsqrt_coe_of_pos (EReal.coe_pos.mp hpos)]; exact isFin_coe _

/-- The reciprocal square root of a positive finite value is positive. -/
theorem IsFin.rsqrt_pos {x : EReal} (hx : IsFin x) (hpos : 0 < x) : 0 < Ideal.rsqrt x := by
  obtain ⟨a, rfl⟩ := isFin_iff.mp hx
  have ha : 0 < a := EReal.coe_pos.mp hpos
  rw [rsqrt_coe_of_pos ha]
  exact EReal.coe_pos.mpr (inv_pos.mpr (Real.sqrt_pos.mpr ha))

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsFin.div {x y : EReal} (hx : IsFin x) (hy : IsFin y) (h0 : y ≠ 0) : IsFin (Ideal.div x y) := by
  obtain ⟨a, rfl⟩ := isFin_iff.mp hx
  obtain ⟨b, rfl⟩ := isFin_iff.mp hy
  have hb : b ≠ 0 := fun h => h0 (by rw [h, EReal.coe_zero])
  rw [div_coe_coe a hb]; exact isFin_coe _

/-- A square is nonnegative, at the infinities too (`⊥ * ⊥ = ⊤`). -/
theorem zero_le_mul_self (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A finite sum of nonnegative values is nonnegative. -/
theorem zero_le_sum {ι : Type*} (s : Finset ι) (f : ι → EReal) (h : ∀ i ∈ s, 0 ≤ f i) : 0 ≤ ∑ i ∈ s, f i :=
  Finset.sum_nonneg h

theorem zero_le_sum_univ {n : Nat} (f : Fin n → EReal) (h : ∀ i, 0 ≤ f i) : 0 ≤ ∑ i, f i :=
  Finset.sum_nonneg fun i _ => h i

/-- The sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative finite value plus a positive finite value is positive (a variance plus its epsilon). -/
theorem add_pos_of_nonneg_of_pos {x y : EReal} (hx : 0 ≤ x) (hy : 0 < y) : 0 < x + y :=
  lt_of_lt_of_le hy (le_add_of_nonneg_left hx)

end Cert.LibFinite
-- ==== Proof.LibConsts.lean ====
/- The float constants the two programs spell, as the extended reals their patterns denote. An f32 pattern with sign
   `s`, biased exponent `E` (neither `0` nor `255`) and fraction `T` denotes `(-1)^s (2^23 + T) 2^(E - 150)`. One module
   states them all, so that no other module unfolds the reading of a bit pattern. -/
import Idealize.ShloMosaic.PureOps.Ideal
import proofs.«174105_j60567628808330_1_alg».proof.Proof.LibFinite

namespace Cert.LibConsts

open Idealize.ShloMosaic
open Cert.LibFinite

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `1.0` as a real coercion. -/
theorem ofBits_one_coe : Ideal.ofBits .f32 0x3F800000#32 = ((1 : ℝ) : EReal) := by
  rw [ofBits_one, EReal.coe_one]

/-- `50000.0` (exponent `142`, fraction `0x435000`) denotes the real `50000`. -/
theorem ofBits_50000 : Ideal.ofBits .f32 0x47435000#32 = ((50000 : ℝ) : EReal) := by
  simp [Ideal.ofBits, Ideal.ieee, -EReal.coe_mul]; norm_num

/-- The batch-norm epsilon, the f32 nearest `1e-5` (exponent `110`, fraction `0x27C5AC`): `10995116 / 2^40`. -/
theorem ofBits_eps : Ideal.ofBits .f32 0x3727C5AC#32 = ((10995116 / 2 ^ 40 : ℝ) : EReal) := by
  simp [Ideal.ofBits, Ideal.ieee, -EReal.coe_mul]; norm_num

/-- The batch-norm bias, the f32 nearest `1e-4` (exponent `113`, fraction `0x51B717`): `13743895 / 2^37`. -/
theorem ofBits_bias : Ideal.ofBits .f32 0x38D1B717#32 = ((13743895 / 2 ^ 37 : ℝ) : EReal) := by
  simp [Ideal.ofBits, Ideal.ieee, -EReal.coe_mul]; norm_num

theorem isFin_zero_lit : IsFin (Ideal.ofBits .f32 0x00000000#32) := by rw [ofBits_zero]; exact isFin_zero
theorem isFin_one_lit : IsFin (Ideal.ofBits .f32 0x3F800000#32) := by rw [ofBits_one]; exact isFin_one
theorem isFin_50000 : IsFin (Ideal.ofBits .f32 0x47435000#32) := by rw [ofBits_50000]; exact isFin_coe _
theorem isFin_eps : IsFin (Ideal.ofBits .f32 0x3727C5AC#32) := by rw [ofBits_eps]; exact isFin_coe _
theorem isFin_bias : IsFin (Ideal.ofBits .f32 0x38D1B717#32) := by rw [ofBits_bias]; exact isFin_coe _

/-- The epsilon is positive. -/
theorem eps_pos : 0 < Ideal.ofBits .f32 0x3727C5AC#32 := by
  rw [ofBits_eps]; exact EReal.coe_pos.mpr (by norm_num)

/-- The divisor `50000.0` is not zero. -/
theorem ofBits_50000_ne_zero : Ideal.ofBits .f32 0x47435000#32 ≠ 0 := by
  rw [ofBits_50000]; exact fun h => by
    have : (50000 : ℝ) = 0 := by exact_mod_cast h
    norm_num at this

end Cert.LibConsts
-- ==== Proof.LibElu.lean ====
/- The exponential linear unit, spelled two ways. One program computes, at each element `v`,
       v            where 0 < v,    and    e^v − 1                       elsewhere;
   the other
       v            where 0 < v,    and    1 · expm1 (0 where 0 < v, else v)   elsewhere,
   with `expm1 x = e^x − 1`. Where `0 < v` both answer `v`. Elsewhere the inner choice answers `v`, so the second is
   `1 · (e^v − 1)`, and `1` is the unit of the product on the extended reals at every value, the infinities included
   (`v = ⊥`: both `0 − 1 = −1`; `v = ⊤` is the first case). So the two are one function on all of `[−∞, +∞]`. -/
import Idealize.ShloMosaic.PureOps.Ideal
import proofs.«174105_j60567628808330_1_alg».proof.Proof.LibFinite
import proofs.«174105_j60567628808330_1_alg».proof.Proof.LibConsts

namespace Cert.LibElu

open Idealize.ShloMosaic
open Cert.LibFinite

/-- The unit as the first program writes it. -/
noncomputable def eluK (v : EReal) : EReal := if 0 < v then v else Ideal.exp v - 1

/-- The unit as the second program writes it. -/
noncomputable def eluR (v : EReal) : EReal := if 0 < v then v else 1 * (Ideal.exp (if 0 < v then 0 else v) - 1)

/-- The two are equal at every extended real. -/
theorem eluK_eq_eluR_apply (v : EReal) : eluK v = eluR v := by
  unfold eluK eluR
  by_cases h : 0 < v
  · rw [if_pos h, if_pos h]
  · rw [if_neg h, if_neg h, if_neg h, one_mul]

/-- … so they are one function. -/
theorem eluK_eq_eluR : eluK = eluR := funext eluK_eq_eluR_apply

/-- A comparison `v > z` as a one-bit value, selected on: the choice by the order. -/
theorem select_cmp_ogt {α : Type} (v z : EReal) (a b : α) :
    Scalar.select (Ideal.cmp .ogt v z) a b = if z < v then a else b := by
  unfold Scalar.select Ideal.cmp
  by_cases h : z < v <;> simp [h]

/-- The first program's term, in the float operations at the extended reals with its two literals as bit patterns
    (`0.0` and `1.0`), is `eluK`. -/
theorem kernel_term_eq (v : Ideal .f32) :
    Scalar.select (FloatOps.cmpf .ogt v (Scalar.ofBits .f32 0x00000000#32)) v
        (FloatOps.subf (FloatOps.exp v) (Scalar.ofBits .f32 0x3F800000#32))
      = eluK v := by
  show Scalar.select (Ideal.cmp .ogt v (Ideal.ofBits .f32 0x00000000#32)) v
      (Ideal.exp v - Ideal.ofBits .f32 0x3F800000#32) = eluK v
  rw [Cert.LibConsts.ofBits_zero, Cert.LibConsts.ofBits_one, select_cmp_ogt]
  rfl

/-- The second program's term likewise (`expm1` is the host's one-operand operation; the literal `1.0` multiplies from
    the left; the inner and outer comparisons are the same comparison against `0.0`), is `eluR`. -/
theorem reference_term_eq (v : Ideal .f32) :
    Scalar.select (FloatOps.cmpf .ogt v (FloatOps.ofBits .f32 0x00000000#32)) v
        (FloatOps.mulf (FloatOps.ofBits .f32 0x3F800000#32)
          (FloatOps.hostUnary .expm1
            (Scalar.select (FloatOps.cmpf .ogt v (FloatOps.ofBits .f32 0x00000000#32)) (FloatOps.ofBits .f32 0x00000000#32) v)))
      = eluR v := by
  show Scalar.select (Ideal.cmp .ogt v (Ideal.ofBits .f32 0x00000000#32)) v
      (Ideal.ofBits .f32 0x3F800000#32 *
        (Ideal.exp (Scalar.select (Ideal.cmp .ogt v (Ideal.ofBits .f32 0x00000000#32)) (Ideal.ofBits .f32 0x00000000#32) v) - 1))
      = eluR v
  rw [Cert.LibConsts.ofBits_zero, Cert.LibConsts.ofBits_one, select_cmp_ogt, select_cmp_ogt]
  rfl

/-- The two programs' terms are equal at every element value. -/
theorem term_eq (v : Ideal .f32) :
    Scalar.select (FloatOps.cmpf .ogt v (Scalar.ofBits .f32 0x00000000#32)) v
        (FloatOps.subf (FloatOps.exp v) (Scalar.ofBits .f32 0x3F800000#32))
      = Scalar.select (FloatOps.cmpf .ogt v (FloatOps.ofBits .f32 0x00000000#32)) v
        (FloatOps.mulf (FloatOps.ofBits .f32 0x3F800000#32)
          (FloatOps.hostUnary .expm1
            (Scalar.select (FloatOps.cmpf .ogt v (FloatOps.ofBits .f32 0x00000000#32)) (FloatOps.ofBits .f32 0x00000000#32) v))) := by
  rw [kernel_term_eq, reference_term_eq, eluK_eq_eluR_apply]

/-- The first program's term over a whole vector, as its payload writes it, is `eluK` at each element. -/
theorem kernel_vec_eq {s : Shape} (x : FVec Ideal s .f32) :
    select (cmpf .ogt x (broadcast s (Scalar.ofBits .f32 0x00000000#32))) x
        (subf (exp x) (broadcast s (Scalar.ofBits .f32 0x3F800000#32)))
      = fun i => eluK (x i) :=
  funext fun i => kernel_term_eq (x i)

/-- The unit of a finite value is finite (below zero it is `e^v − 1`, a real number). -/
theorem isFin_eluK {v : EReal} (hv : IsFin v) : IsFin (eluK v) := by
  unfold eluK
  exact IsFin.ite hv (hv.exp.sub isFin_one)

theorem isFin_eluR {v : EReal} (hv : IsFin v) : IsFin (eluR v) := by
  rw [← eluK_eq_eluR_apply]; exact isFin_eluK hv

end Cert.LibElu
-- ==== Proof.Mid.lean ====
/- A one-layer graph convolution with self-loops, degree-normalised on both sides, then a bias and the exponential
   linear unit. With h = x·W (the transformed features), s and d the source and target node of each edge, and
   v = (1 + in-degree)^(-1/2), the layer's output at node r and feature q is
       elu ( (Σ_{edges e with d e = r} h (s e, q) · (v (s e) · v (d e))  +  h (r, q) · (v r · v r))  +  b q ).
   Both programs compute the degree, the normalisation and the sum over edges with the same array operations (a
   scatter-add of ones, a reciprocal square root, two gathers of v, a row gather of h, a scatter-add of the scaled rows);
   this file names that common part as functions of h and of the edge list, so that neither program's proof has to look
   inside it. It also states, index by index, the two pieces that the programs compute differently: the product x·W and the
   final bias-and-activation step. -/
import proofs.«174105_j60567628808330_1_alg».proof.KernelIdeal
import proofs.«174105_j60567628808330_1_alg».proof.Proof.LibElu
import Idealize.ShloMosaic.PureOps.Ideal
import Idealize.ShloMosaic.Lib.ValueIdx

noncomputable section

namespace Cert.Gcn

open Idealize.ShloMosaic Idealize.ShloMosaic.ValueIdx Cert.KernelIdeal Cert.KernelIdeal.Facts₀ Cert.KernelIdeal.Facts

variable {F : FTy → Type} [FloatOps F] [Cert.KernelIdeal.Facts]

/-! ## The part both programs share -/

/-- Row 0 of the [2, E] edge list as a vector: each edge's source node. -/
def srcCol (e : IVec S2x1600000 32) : IVec S1600000 32 :=
  shapeCast S1600000 (extractStridedSlice S1x1600000 ![0, 0] e slices_S2x1600000_S1x1600000_0_0) shapeCasts_S1x1600000_S1600000

/-- Row 1 of the edge list: each edge's target node. -/
def dstCol (e : IVec S2x1600000 32) : IVec S1600000 32 :=
  shapeCast S1600000 (extractStridedSlice S1x1600000 ![1, 0] e slices_S2x1600000_S1x1600000_1_0) shapeCasts_S1x1600000_S1600000

/-- A node vector as the index column a gather takes: a negative entry counts from the end (N is added to it). -/
def wrapCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- v = (in-degree + 1)^(-1/2): ones scatter-added at the edges' targets into zeros, plus one, reciprocal square root. -/
def dinv (d : IVec S1600000 32) : FVec F S100000 .f32 :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 d)
      (broadcastInDim S1600000 ![] bcast_S_S1600000 (constant S_ .f32 0x3F800000#32)))
    (broadcastInDim S100000 ![] bcast_S_S100000 (constant S_ .f32 0x3F800000#32)))

/-- Each edge's weight v (s e) · v (d e). -/
def coef (s d : IVec S1600000 32) (v : FVec F S100000 .f32) : FVec F S1600000 .f32 :=
  mulf (Host.gather gather_S100000_S1600000x1_S1600000_n_0_n_n_0_1_1 v (wrapCol s))
    (Host.gather gather_S100000_S1600000x1_S1600000_n_0_n_n_0_1_1 v (wrapCol d))

/-- The sum over edges: row s e of h, scaled by the edge's weight, scatter-added at row d e into zeros. -/
def agg (h : FVec F S100000x64 .f32) (s d : IVec S1600000 32) (v : FVec F S100000 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d)
    (mulf (Host.gather gather_S100000x64_S1600000x1_S1600000x64_1_0_n_n_0_1_164 h (wrapCol s))
      (broadcastInDim S1600000x64 ![0, 1] bcast_S1600000x1_S1600000x64_0_1
        (broadcastInDim S1600000x1 ![0] bcast_S1600000_S1600000x1_0 (coef s d v))))

/-- The self-loop term: row r of h scaled by v r · v r. -/
def selfTerm (h : FVec F S100000x64 .f32) (v : FVec F S100000 .f32) : FVec F S100000x64 .f32 :=
  mulf h (broadcastInDim S100000x64 ![0, 1] bcast_S100000x1_S100000x64_0_1
    (broadcastInDim S100000x1 ![0] bcast_S100000_S100000x1_0 (mulf v v)))

/-! ## The two pieces computed differently, over the extended reals -/

/-- x·W at (r, q): the sum over the 128 input features. -/
def feat (x : FVec Ideal S100000x128 .f32) (w : FVec Ideal S128x64 .f32) : FVec Ideal S100000x64 .f32 :=
  fun j => ∑ k : Fin 128, x (ix2 (j 0) k) * w (ix2 k (j 1))

/-- The last step at (r, q): the unit of (a + s) + b q, with b held as one row. -/
def combine (a s : FVec Ideal S100000x64 .f32) (b : FVec Ideal S1x64 .f32) : FVec Ideal S100000x64 .f32 :=
  fun j => Cert.LibElu.eluK ((a j + s j) + b (ix2 0 (j 1)))

end Cert.Gcn

end
-- ==== Proof.LibHostRead.lean ====
/- Host operations of the two programs read at an index, at the ideal instance: a gather of whole rows by a column
   of index words, the accumulating scatter of whole rows (and of single entries) by a column of index words, the
   concatenation of two vectors, the host's column sum and matrix product.  Every statement is over literal-rank
   shapes of arbitrary extents, so both programs (edge lists of 1600000 and of 1700000 entries) use the same lemma. -/
import Idealize.ShloMosaic.PureOps.Ideal
import Idealize.ShloMosaic.PureOps.Ideal.Laws
import Idealize.ShloMosaic.Lib.ValueIdx
import Idealize.ShloMosaic.Lib.StableHlo.Predicate
import Idealize.ShloMosaic.Lib.Pipeline.Value

noncomputable section

namespace Cert.HostRead

open Idealize.ShloMosaic Idealize.ShloMosaic.ValueIdx
open scoped BigOperators

/-- A gather of whole rows of an [N × D] table by an [M × 1] column of index words (jnp's `table[idx]`): row `p` of
    the result is the table's row at the word read signed and clamped into [0, N-1]. -/
theorem rowGather_apply {α : Type} {N M D w : Nat} (d : GatherDims ⟨2, ![N, D]⟩ ⟨2, ![M, 1]⟩ ⟨2, ![M, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, D]⟩ : Shape).Idx → α) (idx : IVec ⟨2, ![M, 1]⟩ w) (p : Fin M) (q : Fin D) (hN : 0 < N) :
    Host.gather d x idx (ix2 p q) = x (ix2 ⟨min (idx (ix2 p 0)).toInt.toNat (N - 1), by omega⟩ q) := by
  obtain ⟨od, cd, ob, sb, sm, ivd, ss, wf⟩ := d
  subst hoff hcoll hob hsb hsim hivd
  set d : GatherDims ⟨2, ![N, D]⟩ ⟨2, ![M, 1]⟩ ⟨2, ![M, D]⟩ := ⟨[1], [0], [], [], [0], 1, ss, wf⟩ with hd
  have hsl : ss 0 = 1 := d.slice_collapsed 0 (List.mem_singleton.mpr rfl)
  have hb : ∀ a : Fin 2, a ∉ d.operandBatchingDims := fun a => List.not_mem_nil
  unfold Host.gather
  congr 1
  funext a
  refine Fin.ext ?_
  match a with
  | ⟨0, _⟩ =>
    show d.start (ix2 p q) idx 0 + d.batchCoord (ix2 p q) 0 + d.offCoord (ix2 p q) 0 = min (idx (ix2 p 0)).toInt.toNat (N - 1)
    rw [GatherDims.batchCoord_eq_zero _ _ _ (hb 0),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx (ix2 p q) ⟨List.idxOf (0 : Fin 2) d.startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    show min (idx (ix2 p 0)).toInt.toNat (N - ss 0) = _
    rw [hsl]
  | ⟨1, _⟩ =>
    show d.start (ix2 p q) idx 1 + d.batchCoord (ix2 p q) 1 + d.offCoord (ix2 p q) 1 = q.val
    rw [GatherDims.batchCoord_eq_zero _ _ _ (hb 1)]
    have hst : d.start (ix2 p q) idx 1 = 0 := by
      unfold GatherDims.start
      rw [dif_neg (show (1 : Fin 2) ∉ [(0 : Fin 2)] by decide)]
    rw [hst]
    unfold GatherDims.offCoord
    have hk : (1 : Fin 2) ∈ d.sKept := (by decide : (1 : Fin 2) ∈ (List.finRange 2).filter (· ∉ [(0 : Fin 2)] ++ []))
    rw [dif_pos hk]
    simp only [Nat.zero_add]
    rfl

/-- Where an update entry (p, q') of the row scatter lands: on operand axis 0 the start is the index word of row `p`
    read signed and the window coordinate is 0 (the axis is inserted); on axis 1 the start is 0 and the window
    coordinate is `q'`. So it lands at (n, q) exactly when the word is `n` and `q' = q`. -/
theorem row_resultIdx_iff {N M D w : Nat}
    (wf : ScatterDims.WF ⟨2, ![N, D]⟩ ⟨2, ![M, 1]⟩ ⟨2, ![M, D]⟩ [1] [0] [0] 1)
    (idx : IVec ⟨2, ![M, 1]⟩ w) (p : Fin M) (q' : Fin D) (n : Fin N) (q : Fin D) :
    (⟨[1], [0], [0], 1, wf⟩ : ScatterDims ⟨2, ![N, D]⟩ ⟨2, ![M, 1]⟩ ⟨2, ![M, D]⟩).resultIdx? (ix2 p q') idx = some (ix2 n q)
      ↔ (idx (ix2 p 0)).toInt = (n.val : Int) ∧ q' = q := by
  set d : ScatterDims ⟨2, ![N, D]⟩ ⟨2, ![M, 1]⟩ ⟨2, ![M, D]⟩ := ⟨[1], [0], [0], 1, wf⟩ with hd
  have hs0 : d.start (ix2 p q') idx 0 = (idx (ix2 p 0)).toInt := by
    unfold ScatterDims.start
    rw [dif_pos (show (0 : Fin 2) ∈ d.scatterDimsToOperandDims from List.mem_singleton.mpr rfl)]
    congr 2
    funext b; refine Fin.ext ?_
    match b with
    | ⟨0, _⟩ => rfl
    | ⟨1, _⟩ => rfl
  have hs1 : d.start (ix2 p q') idx 1 = 0 := by
    unfold ScatterDims.start
    rw [dif_neg (show (1 : Fin 2) ∉ [(0 : Fin 2)] by decide)]
  have hw0 : d.window (ix2 p q') 0 = 0 := by
    unfold ScatterDims.window
    have hk : (0 : Fin 2) ∉ d.sKept := (by decide : (0 : Fin 2) ∉ (List.finRange 2).filter (· ∉ [(0 : Fin 2)]))
    rw [dif_neg hk]
  have hw1 : d.window (ix2 p q') 1 = q'.val := by
    unfold ScatterDims.window
    have hk : (1 : Fin 2) ∈ d.sKept := (by decide : (1 : Fin 2) ∈ (List.finRange 2).filter (· ∉ [(0 : Fin 2)]))
    rw [dif_pos hk]
    rfl
  unfold ScatterDims.resultIdx?
  split
  · rename_i h
    rw [Option.some.injEq, funext_iff, Fin.forall_fin_two]
    have h0 := h 0
    have h1 := h 1
    rw [hs0, hw0] at h0
    rw [hs1, hw1] at h1
    simp only [Fin.ext_iff, hs0, hs1, hw0, hw1]
    show ((idx (ix2 p 0)).toInt + ((0 : Nat) : Int)).toNat = n.val ∧ ((0 : Int) + (q'.val : Int)).toNat = q.val ↔ _
    constructor
    · rintro ⟨a, b⟩; constructor <;> omega
    · rintro ⟨a, b⟩; constructor <;> omega
  · rename_i h
    constructor
    · intro hh; exact absurd hh (by simp)
    · rintro ⟨a, b⟩
      exfalso; apply h
      rw [Fin.forall_fin_two, hs0, hs1, hw0, hw1]
      have hn : n.val < N := n.isLt
      have hq : q'.val < D := q'.isLt
      refine ⟨⟨by omega, ?_⟩, ⟨by omega, ?_⟩⟩
      · show (idx (ix2 p 0)).toInt + ((0 : Nat) : Int) < (N : Int); omega
      · show (0 : Int) + (q'.val : Int) < (D : Int); omega

/-- The accumulating scatter of the rows of an [M × D] update into an [N × D] operand by an [M × 1] column of index
    words: entry (n, q) gains every update entry (p, q) whose word, read signed, is `n`. -/
theorem rowScatterAdd_apply {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0])
    (hivd : d.indexVectorDim = 1)
    (x : (⟨2, ![N, D]⟩ : Shape).Idx → EReal) (idx : IVec ⟨2, ![M, 1]⟩ w) (upd : (⟨2, ![M, D]⟩ : Shape).Idx → EReal)
    (n : Fin N) (q : Fin D) :
    Ideal.hostScatterAdd d x idx upd (ix2 n q)
      = x (ix2 n q) + ∑ p : Fin M, if (idx (ix2 p 0)).toInt = (n.val : Int) then upd (ix2 p q) else 0 := by
  obtain ⟨uw, iw, sd, ivd, wf⟩ := d
  subst huw hiw hsd hivd
  unfold Ideal.hostScatterAdd
  congr 1
  rw [Finset.sum_filter, sum_idx2]
  refine Finset.sum_congr rfl fun p _ => ?_
  rw [Finset.sum_congr rfl (fun b _ => if_congr (row_resultIdx_iff wf idx p b n q) rfl rfl)]
  by_cases hI : (idx (ix2 p 0)).toInt = (n.val : Int)
  · simp [hI]
  · simp [hI]

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl
/-- … so a sum over it is the sum over the coordinate. -/
theorem sum_idx1 {R : Type*} [AddCommMonoid R] {n : Nat} (f : (⟨1, ![n]⟩ : Shape).Idx → R) :
    ∑ i, f i = ∑ a : Fin n, f (ix1 a) := by
  rw [← Equiv.sum_comp (idxEquiv1 (n := n)).symm f]
  rfl

/-- Where update entry `p` of the vector scatter lands: the start on the operand's one axis is the index word of row
    `p` read signed, the window coordinate 0. So it lands at `n` exactly when the word is `n`. -/
theorem vec_resultIdx_iff {N M w : Nat}
    (wf : ScatterDims.WF ⟨1, ![N]⟩ ⟨2, ![M, 1]⟩ ⟨1, ![M]⟩ [] [0] [0] 1)
    (idx : IVec ⟨2, ![M, 1]⟩ w) (p : Fin M) (n : Fin N) :
    (⟨[], [0], [0], 1, wf⟩ : ScatterDims ⟨1, ![N]⟩ ⟨2, ![M, 1]⟩ ⟨1, ![M]⟩).resultIdx? (ix1 p) idx = some (ix1 n)
      ↔ (idx (ix2 p 0)).toInt = (n.val : Int) := by
  set d : ScatterDims ⟨1, ![N]⟩ ⟨2, ![M, 1]⟩ ⟨1, ![M]⟩ := ⟨[], [0], [0], 1, wf⟩ with hd
  have hs0 : d.start (ix1 p) idx 0 = (idx (ix2 p 0)).toInt := by
    unfold ScatterDims.start
    rw [dif_pos (show (0 : Fin 1) ∈ d.scatterDimsToOperandDims from List.mem_singleton.mpr rfl)]
    congr 2
    funext b; refine Fin.ext ?_
    match b with
    | ⟨0, _⟩ => rfl
    | ⟨1, _⟩ => rfl
  have hw0 : d.window (ix1 p) 0 = 0 := by
    unfold ScatterDims.window
    have hk : (0 : Fin 1) ∉ d.sKept := (by decide : (0 : Fin 1) ∉ (List.finRange 1).filter (· ∉ [(0 : Fin 1)]))
    rw [dif_neg hk]
  unfold ScatterDims.resultIdx?
  split
  · rename_i h
    rw [Option.some.injEq, funext_iff, Fin.forall_fin_one]
    have h0 := h 0
    rw [hs0, hw0] at h0
    simp only [Fin.ext_iff, hs0, hw0]
    show ((idx (ix2 p 0)).toInt + ((0 : Nat) : Int)).toNat = n.val ↔ _
    constructor
    · intro a; omega
    · intro a; omega
  · rename_i h
    constructor
    · intro hh; exact absurd hh (by simp)
    · intro a
      exfalso; apply h
      rw [Fin.forall_fin_one, hs0, hw0]
      have hn : n.val < N := n.isLt
      refine ⟨by omega, ?_⟩
      show (idx (ix2 p 0)).toInt + ((0 : Nat) : Int) < (N : Int); omega

/-- The same for a vector operand and a vector of updates. -/
theorem vecScatterAdd_apply {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![M, 1]⟩ w) (upd : (⟨1, ![M]⟩ : Shape).Idx → EReal)
    (n : Fin N) :
    Ideal.hostScatterAdd d x idx upd (ix1 n)
      = x (ix1 n) + ∑ p : Fin M, if (idx (ix2 p 0)).toInt = (n.val : Int) then upd (ix1 p) else 0 := by
  obtain ⟨uw, iw, sd, ivd, wf⟩ := d
  subst huw hiw hsd hivd
  unfold Ideal.hostScatterAdd
  congr 1
  rw [Finset.sum_filter, sum_idx1]
  exact Finset.sum_congr rfl fun p _ => if_congr (vec_resultIdx_iff wf idx p n) rfl rfl

/-- Two vectors laid end to end, read at a position: the first below its length, the second from there on. -/
theorem concat2_apply {α : Type} {A B : Nat} (a : (⟨1, ![A]⟩ : Shape).Idx → α) (b : (⟨1, ![B]⟩ : Shape).Idx → α)
    (h : Shape.Concatenates [(⟨1, ![A]⟩ : Shape), ⟨1, ![B]⟩] ⟨1, ![A + B]⟩ 0) (j : Fin (A + B)) :
    concatenate (⟨1, ![A + B]⟩ : Shape) 0 [⟨⟨1, ![A]⟩, a⟩, ⟨⟨1, ![B]⟩, b⟩] h (ix1 j)
      = if hj : j.val < A then a (ix1 ⟨j.val, hj⟩) else b (ix1 ⟨j.val - A, by omega⟩) := by
  split
  · rename_i hj
    exact concatenate_pair_apply_left 0 a b h (ix1 j) rfl (ix1 ⟨j.val, hj⟩) (fun c => by
      match c with
      | ⟨0, _⟩ => rfl)
  · rename_i hj
    exact concatenate_pair_apply_right 0 a b h (ix1 j) rfl rfl (ix1 ⟨j.val - A, by omega⟩)
      (fun c hc => absurd (Subsingleton.elim _ _) hc) (by show j.val - A + A = j.val; omega)

/-- The host's sum of an [N × D] array over its first axis, from the initial value `init`. -/
theorem colReduceAdd_apply {N D : Nat} (h' : (⟨2, ![N, D]⟩ : Shape).ReducesTo [0] ⟨1, ![D]⟩)
    (x : (⟨2, ![N, D]⟩ : Shape).Idx → EReal) (init : EReal) (q : Fin D) :
    Ideal.hostReduceAdd h' x init (ix1 q) = init + ∑ n : Fin N, x (ix2 n q) := by
  have h : (⟨2, ![N, D]⟩ : Shape).Reduces [0] ⟨1, ![D]⟩ := ⟨h'.1, Nat.one_pos, h'.2⟩
  rw [Ideal.hostReduceAdd_single h' h]
  show init + ∑ k : Fin N, x (h.lift (ix1 q) k) = _
  congr 1
  refine Finset.sum_congr rfl fun k _ => ?_
  congr 1
  funext c; refine Fin.ext ?_
  match c with
  | ⟨0, _⟩ => rfl
  | ⟨1, _⟩ => rfl

/-- The host's product of an [N × K] by a [K × D] array (contracting the first's axis 1 with the second's axis 0). -/
theorem dot_apply {N K D : Nat} (d : DotDims ⟨2, ![N, K]⟩ ⟨2, ![K, D]⟩ ⟨2, ![N, D]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![N, K]⟩ : Shape).Idx → EReal) (r : (⟨2, ![K, D]⟩ : Shape).Idx → EReal) (n : Fin N) (q : Fin D) :
    (∑ k : d.contr.Idx, l (d.lhsIdx (ix2 n q) k) * r (d.rhsIdx (ix2 n q) k)) = ∑ k : Fin K, l (ix2 n k) * r (ix2 k q) := by
  obtain ⟨lc, rc, ln, rn, lb, rb, wf⟩ := d
  subst hlc hrc hln hrn hlb hrb
  set d : DotDims ⟨2, ![N, K]⟩ ⟨2, ![K, D]⟩ ⟨2, ![N, D]⟩ := ⟨[1], [0], [0], [1], [], [], wf⟩ with hd
  have hr : d.contr.rank = 1 := rfl
  have hs : d.contr.size ⟨0, by omega⟩ = K := rfl
  rw [← Equiv.sum_comp (contrEquiv1 d K hr hs).symm]
  refine Finset.sum_congr rfl fun k _ => ?_
  have hl : d.lhsIdx (ix2 n q) ((contrEquiv1 d K hr hs).symm k) = ix2 n k := by
    funext a; refine Fin.ext ?_
    match a with
    | ⟨0, _⟩ => rfl
    | ⟨1, _⟩ => rfl
  have hr' : d.rhsIdx (ix2 n q) ((contrEquiv1 d K hr hs).symm k) = ix2 k q := by
    funext a; refine Fin.ext ?_
    match a with
    | ⟨0, _⟩ => rfl
    | ⟨1, _⟩ => rfl
  rw [hl, hr']

end Cert.HostRead

end
-- ==== Proof.Reg0.lean ====
/- The first kernel call: 20 grid points, point t multiplying rows 5000·t … 5000·t + 4999 of x by the whole of W (both
   narrowed to bf16, which changes nothing over the extended reals) into a zero accumulator, and writing the product to the
   same rows of the result. So the result array ends as x·W, entry by entry: each entry is written by exactly one point,
   and what that point writes there is the sum over the 128 input features of x (r, k) · W (k, q). -/
import proofs.«174105_j60567628808330_1_alg».proof.Proof.Gen.KernelIdeal.Frame
import proofs.«174105_j60567628808330_1_alg».proof.Proof.Mid
import proofs.«174105_j60567628808330_1_alg».proof.Proof.LibHostRead
import Idealize.ShloMosaic.Lib.Pipeline.Value
import Idealize.ShloMosaic.PureOps.Ideal.Laws
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem offs_zero : (![0, 0] : Fin 2 → Nat) = fun _ => 0 := funext fun a => by fin_cases a <;> rfl

/-- The body's product at (p, q): the sum over k of the row block's (p, k) times the weight's (k, q). -/
theorem prodBlock_apply (x0 : Vec Ideal S5000x128 .f32) (x1 : Vec Ideal S128x64 .f32) (p : Fin 5000) (q : Fin 64) :
    k0_pay1 x0 x1 (ix2 p q) = ∑ k : Fin 128, x0 (ix2 p k) * x1 (ix2 k q) := by
  unfold k0_pay1
  refine (Ideal.matmul_constant_zero_apply dot_S5000x128_S128x64_S5000x64_1_0_0_1_n_n none _ _ _).trans ?_
  exact Cert.HostRead.dot_apply dot_S5000x128_S128x64_S5000x64_1_0_0_1_n_n rfl rfl rfl rfl rfl rfl _ _ p q

/-- The index maps over the grid: the row block of x and of the result is the point's own, W's block is the whole. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) < 20 :=
  (by decide +kernel : ∀ t : Fin grid0.N, _)

/-- Every row block is some point's. -/
theorem idx_onto0 : ∀ n : Fin 20, ∃ t : Fin cfg0.N, win0_2.index t (0 : Fin 2) = n.val :=
  (by decide +kernel : ∀ n : Fin 20, ∃ t : Fin grid0.N, win0_2.index t (0 : Fin 2) = n.val)

/-- x's block at point t is rows 5000·(block index) … of the array. -/
theorem xblk_apply (c : Dev nD) (t : Fin cfg0.N) (y : S5000x128.Idx) (i : S100000x128.Idx)
    (h0 : (i 0).val = win0_2.index t (0 : Fin 2) * 5000 + (y 0).val) (h1 : (i 1).val = (y 1).val) :
    (iblk0 V c 0 t : Vec Ideal S5000x128 .f32) y = (V c main_arg0 : S100000x128.Idx → Elt Ideal .f32) i := by
  obtain ⟨e0, e1, e2, e3, e4, e5⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- W's block at every point is the whole array. -/
theorem wblk_apply (c : Dev nD) (t : Fin cfg0.N) (y : S128x64.Idx) :
    (iblk0 V c 1 t : Vec Ideal S128x64 .f32) y = (V c main_arg1 : S128x64.Idx → Elt Ideal .f32) y := by
  obtain ⟨e0, e1, e2, e3, e4, e5⟩ := idx_facts0 t
  unfold iblk0
  rw [View.read_apply]
  show V c main_arg1 _ = V c main_arg1 _
  congr 1
  funext a
  apply Fin.ext
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- One entry of a point's product is the entry of x·W at the same column and at the point's row offset. -/
theorem blockProd_eq (c : Dev nD) (t : Fin cfg0.N) (j : S5000x64.Idx) (i : S100000x64.Idx)
    (h0 : (i 0).val = win0_2.index t (0 : Fin 2) * 5000 + (j 0).val) (h1 : (i 1).val = (j 1).val) :
    k0_pay1 (iblk0 V c 0 t) (iblk0 V c 1 t) j = Cert.Gcn.feat (V c main_arg0) (V c main_arg1) i := by
  obtain ⟨p, q, rfl⟩ : ∃ (p : Fin 5000) (q : Fin 64), j = ix2 p q := ⟨j 0, j 1, eq_ix2 j⟩
  rw [prodBlock_apply]
  unfold Cert.Gcn.feat
  refine Finset.sum_congr rfl fun k _ => ?_
  rw [xblk_apply V c t (ix2 p k) (ix2 (i 0) k) h0 rfl, wblk_apply V c t (ix2 k q)]
  have hq : (i 1) = q := Fin.ext h1
  rw [hq]

/-- What point t writes back is block t of x·W. -/
theorem flushed0_eq (c : Dev nD) (t : Fin cfg0.N) :
    (dat0 V c).flushed 2 t = ((cfg0.win 2).blk t).view.read (Elt Ideal) (Cert.Gcn.feat (V c main_arg0) (V c main_arg1)) := by
  show (cfg0.win 2).cut (grid0.coords t) ((dat0 V c).after 2 t) = _
  rw [after0_2]
  unfold out0_2
  rw [View.canon_unit_zero offs_zero]
  simp only [View.ld_unit_zero (S := S5000x128) offs_zero, View.ld_unit_zero (S := S128x64) offs_zero]
  obtain ⟨e0, e1, e2, e3, e4, e5⟩ := idx_facts0 t
  funext j
  show k0_pay1 (iblk0 V c 0 t) (iblk0 V c 1 t) j = Cert.Gcn.feat (V c main_arg0) (V c main_arg1) (((cfg0.win 2).blk t).view.emb j)
  refine blockProd_eq V c t j (((cfg0.win 2).blk t).view.emb j) ?_ ?_
  · show win0_2.index t (0 : Fin 2) * 5000 + 1 * (j 0).val = _; omega
  · show win0_2.index t (1 : Fin 2) * 64 + 1 * (j 1).val = _; omega

/-- An entry is in point t's block iff each coordinate is in the block's range. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v11).slice (win0_2.rect t)).set ↔ _
  rw [View.set_slice_whole, Rect.mem_set_unit]
  exact Iff.rfl

/-- The result array of the first call ends as x·W: row r is written by the point r / 5000. -/
theorem final0 (c : Dev nD) : (dat0 V c).arrAt 2 cfg0.N = Cert.Gcn.feat (V c main_arg0) (V c main_arg1) :=
  (dat0 V c).arrAt_eq_of_cover 2 _ (fun t _ => flushed0_eq V c t) fun i => by
    have hi0 : (i 0).val < 100000 := (i 0).isLt
    have hi1 : (i 1).val < 64 := (i 1).isLt
    obtain ⟨t, ht⟩ := idx_onto0 ⟨(i 0).val / 5000, by omega⟩
    obtain ⟨e0, e1, e2, e3, e4, e5⟩ := idx_facts0 t
    have ht' : win0_2.index t (0 : Fin 2) = (i 0).val / 5000 := ht
    refine ⟨t, flush0_2 t, ?_⟩
    rw [mem_blk0]
    intro a
    match a with
    | ⟨0, _⟩ => show win0_2.index t (0 : Fin 2) * 5000 ≤ (i 0).val ∧ (i 0).val < win0_2.index t (0 : Fin 2) * 5000 + 5000; omega
    | ⟨1, _⟩ => show win0_2.index t (1 : Fin 2) * 64 ≤ (i 1).val ∧ (i 1).val < win0_2.index t (1 : Fin 2) * 64 + 64; omega

end Cert.KernelIdeal.Hand

end
-- ==== Proof.Reg1.lean ====
/- The second kernel call: 20 grid points, point t taking rows 5000·t … 5000·t + 4999 of the aggregate and of the
   self-loop term and the whole bias row, adding the three (the bias row repeated down the rows) and applying the
   exponential linear unit, written as "the value where it is above zero, e^value − 1 elsewhere". Each entry of the result
   is written by exactly one point, so the result array ends as that function of the three arrays, entry by entry. -/
import proofs.«174105_j60567628808330_1_alg».proof.Proof.Gen.KernelIdeal.Frame
import proofs.«174105_j60567628808330_1_alg».proof.Proof.Mid
import Idealize.ShloMosaic.Lib.Pipeline.Value
import Idealize.ShloMosaic.Lib.ValueLayout
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand1

open Cert.KernelIdeal Cert.KernelIdeal.Gen

variable (V : (c : Dev nD) → (b : Ref sig .tc) → Buf (Elt Ideal) ((c : Thread nD τ).loc b))

theorem offs_zero : (![0, 0] : Fin 2 → Nat) = fun _ => 0 := funext fun a => by fin_cases a <;> rfl

/-- The body's value at (p, q): the unit of (first block + second block) + the bias row's entry q. -/
theorem combBlock_apply (x0 x1 : Vec Ideal S5000x64 .f32) (x2 : Vec Ideal S1x64 .f32) (p : Fin 5000) (q : Fin 64) :
    k1_pay1 x0 x1 x2 (ix2 p q) = Cert.LibElu.eluK ((x0 (ix2 p q) + x1 (ix2 p q)) + x2 (ix2 (0 : Fin 1) q)) := by
  unfold k1_pay1
  refine (congrFun (Cert.LibElu.kernel_vec_eq _) (ix2 p q)).trans ?_
  refine congrArg Cert.LibElu.eluK ?_
  show (shapeCast S5000x64 x0 shapeCasts_S5000x64_S5000x64 (ix2 p q) + shapeCast S5000x64 x1 shapeCasts_S5000x64_S5000x64 (ix2 p q))
      + broadcastTo S5000x64 (shapeCast S1x64 x2 shapeCasts_S1x64_S1x64) broadcasts_S1x64_S5000x64 (ix2 p q) = _
  rw [shapeCast_self, shapeCast_self, shapeCast_self, broadcastTo_1b_ab_apply]

/-- The index maps over the grid: the two row blocks read and the one written are the point's own; the bias block is the whole row. -/
theorem idx_facts1 : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) < 20 :=
  (by decide +kernel : ∀ t : Fin grid1.N, _)

/-- Every row block is some point's. -/
theorem idx_onto1 : ∀ n : Fin 20, ∃ t : Fin cfg1.N, win1_3.index t (0 : Fin 2) = n.val :=
  (by decide +kernel : ∀ n : Fin 20, ∃ t : Fin grid1.N, win1_3.index t (0 : Fin 2) = n.val)

/-- The aggregate's block at point t is rows 5000·(block index) … of its array. -/
theorem ablk_apply (c : Dev nD) (t : Fin cfg1.N) (y : S5000x64.Idx) (i : S100000x64.Idx)
    (h0 : (i 0).val = win1_3.index t (0 : Fin 2) * 5000 + (y 0).val) (h1 : (i 1).val = (y 1).val) :
    (iblk1 V c 0 t : Vec Ideal S5000x64 .f32) y = (V c main_v39 : S100000x64.Idx → Elt Ideal .f32) i := by
  obtain ⟨e0, e1, e2, e3, e4, e5, e6, e7⟩ := idx_facts1 t
  unfold iblk1
  rw [View.read_apply]
  show V c main_v39 _ = V c main_v39 _
  congr 1
  funext a
  apply Fin.ext
  match a with
  | ⟨0, _⟩ => show win1_0.index t (0 : Fin 2) * 5000 + 1 * (y 0).val = (i 0).val; omega
  | ⟨1, _⟩ => show win1_0.index t (1 : Fin 2) * 64 + 1 * (y 1).val = (i 1).val; omega

/-- The self-loop term's block likewise. -/
theorem sblk_apply (c : Dev nD) (t : Fin cfg1.N) (y : S5000x64.Idx) (i : S100000x64.Idx)
    (h0 : (i 0).val = win1_3.index t (0 : Fin 2) * 5000 + (y 0).val) (h1 : (i 1).val = (y 1).val) :
    (iblk1 V c 1 t : Vec Ideal S5000x64 .f32) y = (V c main_v43 : S100000x64.Idx → Elt Ideal .f32) i := by
  obtain ⟨e0, e1, e2, e3, e4, e5, e6, e7⟩ := idx_facts1 t
  unfold iblk1
  rw [View.read_apply]
  show V c main_v43 _ = V c main_v43 _
  congr 1
  funext a
  apply Fin.ext
  match a with
  | ⟨0, _⟩ => show win1_1.index t (0 : Fin 2) * 5000 + 1 * (y 0).val = (i 0).val; omega
  | ⟨1, _⟩ => show win1_1.index t (1 : Fin 2) * 64 + 1 * (y 1).val = (i 1).val; omega

/-- The bias block at every point is the whole row. -/
theorem bblk_apply (c : Dev nD) (t : Fin cfg1.N) (y : S1x64.Idx) :
    (iblk1 V c 2 t : Vec Ideal S1x64 .f32) y = (V c main_v44 : S1x64.Idx → Elt Ideal .f32) y := by
  obtain ⟨e0, e1, e2, e3, e4, e5, e6, e7⟩ := idx_facts1 t
  unfold iblk1
  rw [View.read_apply]
  show V c main_v44 _ = V c main_v44 _
  congr 1
  funext a
  apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- One entry of a point's result is the entry of the whole-array function at the same column and at the point's row offset. -/
theorem blockComb_eq (c : Dev nD) (t : Fin cfg1.N) (j : S5000x64.Idx) (i : S100000x64.Idx)
    (h0 : (i 0).val = win1_3.index t (0 : Fin 2) * 5000 + (j 0).val) (h1 : (i 1).val = (j 1).val) :
    k1_pay1 (iblk1 V c 0 t) (iblk1 V c 1 t) (iblk1 V c 2 t) j = Cert.Gcn.combine (V c main_v39) (V c main_v43) (V c main_v44) i := by
  obtain ⟨p, q, rfl⟩ : ∃ (p : Fin 5000) (q : Fin 64), j = ix2 p q := ⟨j 0, j 1, eq_ix2 j⟩
  rw [combBlock_apply]
  unfold Cert.Gcn.combine
  rw [ablk_apply V c t (ix2 p q) i h0 h1, sblk_apply V c t (ix2 p q) i h0 h1, bblk_apply V c t (ix2 (0 : Fin 1) q)]
  have hq : (i 1) = q := Fin.ext h1
  rw [hq]

/-- What point t writes back is block t of the whole-array function. -/
theorem flushed1_eq (c : Dev nD) (t : Fin cfg1.N) :
    (dat1 V c).flushed 3 t = ((cfg1.win 3).blk t).view.read (Elt Ideal) (Cert.Gcn.combine (V c main_v39) (V c main_v43) (V c main_v44)) := by
  show (cfg1.win 3).cut (grid1.coords t) ((dat1 V c).after 3 t) = _
  rw [after1_3]
  unfold out1_3
  rw [View.canon_unit_zero offs_zero]
  simp only [View.ld_unit_zero (S := S5000x64) offs_zero, View.ld_unit_zero (S := S1x64) offs_zero]
  obtain ⟨e0, e1, e2, e3, e4, e5, e6, e7⟩ := idx_facts1 t
  funext j
  show k1_pay1 (iblk1 V c 0 t) (iblk1 V c 1 t) (iblk1 V c 2 t) j = Cert.Gcn.combine (V c main_v39) (V c main_v43) (V c main_v44) (((cfg1.win 3).blk t).view.emb j)
  refine blockComb_eq V c t j (((cfg1.win 3).blk t).view.emb j) ?_ ?_
  · show win1_3.index t (0 : Fin 2) * 5000 + 1 * (j 0).val = _; omega
  · show win1_3.index t (1 : Fin 2) * 64 + 1 * (j 1).val = _; omega

/-- An entry is in point t's block iff each coordinate is in the block's range. -/
theorem mem_blk1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- The result array of the second call: row r is written by the point r / 5000. -/
theorem final1 (c : Dev nD) : (dat1 V c).arrAt 3 cfg1.N = Cert.Gcn.combine (V c main_v39) (V c main_v43) (V c main_v44) :=
  (dat1 V c).arrAt_eq_of_cover 3 _ (fun t _ => flushed1_eq V c t) fun i => by
    have hi0 : (i 0).val < 100000 := (i 0).isLt
    have hi1 : (i 1).val < 64 := (i 1).isLt
    obtain ⟨t, ht⟩ := idx_onto1 ⟨(i 0).val / 5000, by omega⟩
    obtain ⟨e0, e1, e2, e3, e4, e5, e6, e7⟩ := idx_facts1 t
    have ht' : win1_3.index t (0 : Fin 2) = (i 0).val / 5000 := ht
    refine ⟨t, flush1_3 t, ?_⟩
    rw [mem_blk1]
    intro a
    match a with
    | ⟨0, _⟩ => show win1_3.index t (0 : Fin 2) * 5000 ≤ (i 0).val ∧ (i 0).val < win1_3.index t (0 : Fin 2) * 5000 + 5000; omega
    | ⟨1, _⟩ => show win1_3.index t (1 : Fin 2) * 64 ≤ (i 1).val ∧ (i 1).val < win1_3.index t (1 : Fin 2) * 64 + 64; omega

end Cert.KernelIdeal.Hand1

end
-- ==== Proof.KValue.lean ====
/- The kernel program's result as one function of its four arguments. Its @main is: fourteen array operations (the
   edge list's two rows, the degrees, v = (degree + 1)^(-1/2)); the first call (h = x·W); forty more (the edge weights,
   the gather of h's rows, the scatter-add, the self-loop term, the bias as a row); the second call (sum, bias,
   activation). Reading the contents each call finds back through the operations before it, the result buffer ends as
       combine (agg h s d v) (selfTerm h v) (bias row),   h = feat x W,  s, d the edge list's rows,  v = dinv d. -/
import proofs.«174105_j60567628808330_1_alg».proof.Proof.Gen.KernelIdeal.Frame
import proofs.«174105_j60567628808330_1_alg».proof.Proof.Mid
import proofs.«174105_j60567628808330_1_alg».proof.Proof.Reg0
import proofs.«174105_j60567628808330_1_alg».proof.Proof.Reg1
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Through

open Cert.KernelIdeal Cert.KernelIdeal.Gen Cert.KernelIdeal.Facts₀ Cert.KernelIdeal.Facts

/-- The kernel program's result as a function of x, W, the bias and the edge list. -/
def kOut (x : FVec Ideal S100000x128 .f32) (w : FVec Ideal S128x64 .f32) (b : FVec Ideal S64 .f32) (e : IVec S2x1600000 32) :
    FVec Ideal S100000x64 .f32 :=
  Cert.Gcn.combine
    (Cert.Gcn.agg (Cert.Gcn.feat x w) (Cert.Gcn.srcCol e) (Cert.Gcn.dstCol e) (Cert.Gcn.dinv (F := Ideal) (Cert.Gcn.dstCol e)))
    (Cert.Gcn.selfTerm (Cert.Gcn.feat x w) (Cert.Gcn.dinv (F := Ideal) (Cert.Gcn.dstCol e)))
    (shapeCast S1x64 b Facts₀.shapeCasts_S64_S1x64)

variable (m : (ℓ : Loc nD τ sig) → Buf (Elt Ideal) ℓ) (ρ : Dev nD → PrngReg)

/-! ## What the first call finds, and leaves -/

theorem V1_arg0 (c : Dev nD) : V1 m ρ c main_arg0 = m ((c : Thread nD τ).loc main_arg0) := by
  show after hostOps0 (W0 m ρ c) (Proc.devRef .tc main_arg0) = _
  after_results <;> rfl

theorem V1_arg1 (c : Dev nD) : V1 m ρ c main_arg1 = m ((c : Thread nD τ).loc main_arg1) := by
  show after hostOps0 (W0 m ρ c) (Proc.devRef .tc main_arg1) = _
  after_results <;> rfl

/-- The first call leaves h = x·W in its result buffer. -/
theorem W2_h (c : Dev nD) : W2 m ρ c (Proc.devRef .tc main_v11)
    = Cert.Gcn.feat (m ((c : Thread nD τ).loc main_arg0)) (m ((c : Thread nD τ).loc main_arg1)) := by
  refine (W2_arr m ρ c 2).trans ?_
  rw [Cert.KernelIdeal.Hand.final0 (V1 m ρ) c, V1_arg0, V1_arg1]

/-- The edge sources, computed before the first call and not touched by it. -/
theorem W2_src (c : Dev nD) : W2 m ρ c (Proc.devRef .tc main_v1) = Cert.Gcn.srcCol (m ((c : Thread nD τ).loc main_arg3)) := by
  refine (W2_of_ne m ρ c main_v1 (by decide)).trans ?_
  show after hostOps0 (W0 m ρ c) (Proc.devRef .tc main_v1) = _
  unfold Cert.Gcn.srcCol
  after_results <;> rfl

/-- The edge targets likewise. -/
theorem W2_dst (c : Dev nD) : W2 m ρ c (Proc.devRef .tc main_v3) = Cert.Gcn.dstCol (m ((c : Thread nD τ).loc main_arg3)) := by
  refine (W2_of_ne m ρ c main_v3 (by decide)).trans ?_
  show after hostOps0 (W0 m ρ c) (Proc.devRef .tc main_v3) = _
  unfold Cert.Gcn.dstCol
  after_results <;> rfl

/-- v = (degree + 1)^(-1/2) likewise. -/
theorem W2_dinv (c : Dev nD) : W2 m ρ c (Proc.devRef .tc main_v10)
    = Cert.Gcn.dinv (F := Ideal) (Cert.Gcn.dstCol (m ((c : Thread nD τ).loc main_arg3))) := by
  refine (W2_of_ne m ρ c main_v10 (by decide)).trans ?_
  show after hostOps0 (W0 m ρ c) (Proc.devRef .tc main_v10) = _
  unfold Cert.Gcn.dinv Cert.Gcn.dstCol
  after_results <;> rfl

/-- The bias is as launched. -/
theorem W2_bias (c : Dev nD) : W2 m ρ c (Proc.devRef .tc main_arg2) = m ((c : Thread nD τ).loc main_arg2) := by
  refine (W2_of_ne m ρ c main_arg2 (by decide)).trans ?_
  show after hostOps0 (W0 m ρ c) (Proc.devRef .tc main_arg2) = _
  after_results <;> rfl

/-! ## What the second call finds -/

/-- The aggregate, over what the first call left. -/
theorem W3_agg (c : Dev nD) : W3 m ρ c (Proc.devRef .tc main_v39)
    = Cert.Gcn.agg (F := Ideal) (W2 m ρ c (Proc.devRef .tc main_v11)) (W2 m ρ c (Proc.devRef .tc main_v1))
        (W2 m ρ c (Proc.devRef .tc main_v3)) (W2 m ρ c (Proc.devRef .tc main_v10)) := by
  show after hostOps1 (W2 m ρ c) (Proc.devRef .tc main_v39) = _
  unfold Cert.Gcn.agg Cert.Gcn.coef Cert.Gcn.wrapCol
  after_results_simp <;> rfl

/-- The self-loop term. -/
theorem W3_self (c : Dev nD) : W3 m ρ c (Proc.devRef .tc main_v43)
    = Cert.Gcn.selfTerm (F := Ideal) (W2 m ρ c (Proc.devRef .tc main_v11)) (W2 m ρ c (Proc.devRef .tc main_v10)) := by
  show after hostOps1 (W2 m ρ c) (Proc.devRef .tc main_v43) = _
  unfold Cert.Gcn.selfTerm
  after_results_simp <;> rfl

/-- The bias as a row. -/
theorem W3_bias (c : Dev nD) : W3 m ρ c (Proc.devRef .tc main_v44)
    = shapeCast S1x64 (W2 m ρ c (Proc.devRef .tc main_arg2)) Facts₀.shapeCasts_S64_S1x64 := by
  show after hostOps1 (W2 m ρ c) (Proc.devRef .tc main_v44) = _
  after_results_simp <;> rfl

/-! ## The result -/

/-- The result buffer after the second call is `kOut` of the four arguments as launched. -/
theorem result_eq (c : Dev nD) : W4 m ρ c (Proc.devRef .tc main_v45)
    = kOut (m ((c : Thread nD τ).loc main_arg0)) (m ((c : Thread nD τ).loc main_arg1)) (m ((c : Thread nD τ).loc main_arg2))
        (m ((c : Thread nD τ).loc main_arg3)) := by
  refine (W4_arr m ρ c 3).trans ?_
  rw [Cert.KernelIdeal.Hand1.final1 (V3 m ρ) c]
  show Cert.Gcn.combine (W3 m ρ c (Proc.devRef .tc main_v39)) (W3 m ρ c (Proc.devRef .tc main_v43)) (W3 m ρ c (Proc.devRef .tc main_v44)) = _
  rw [W3_agg, W3_self, W3_bias, W2_h, W2_src, W2_dst, W2_dinv, W2_bias]
  rfl

end Cert.KernelIdeal.Through

end
-- ==== Proof.RefRun.lean ====
/- The reference program's run, read back. The reference is a straight line of host array operations: the edge list's two
   rows, the degree and its reciprocal square root, the product x·W, the three gathers, the scaled rows scatter-added, the
   self-loop term, the bias, and at the end the exponential linear unit written with two choices and expm1. Listed in order
   (the unit's operations in the place of its call), the line runs to its end from any memory and leaves each buffer at the
   operations' composed term of the four argument arrays. That term is named `refOut` and is read at one index (p, q): the
   unit, in this program's spelling, of (sum over edges + self-loop term) + bias at q. -/
import proofs.«174105_j60567628808330_1_alg».proof.ReferenceIdeal
import proofs.«174105_j60567628808330_1_alg».proof.Proof.Gen.ReferenceIdeal
import proofs.«174105_j60567628808330_1_alg».proof.Proof.Gen.KernelIdeal
import proofs.«174105_j60567628808330_1_alg».proof.Proof.Mid
import proofs.«174105_j60567628808330_1_alg».proof.Proof.LibHostRead
import Idealize.ShloMosaic.Lib.StableHlo.Run
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

/-- The main line's 58 operations in order, up to the pre-activation (sum over edges + self-loop term) + bias. -/
abbrev opsMain : List (HloOp τ sig (Elt F)) :=
  [ unary main_arg3 main_v0 (extractStridedSlice S1x1600000 ![0, 0] · slices_S2x1600000_S1x1600000_0_0),
    reshape main_v0 main_v1 rfl shapeCasts_S1x1600000_S1600000,
    unary main_arg3 main_v2 (extractStridedSlice S1x1600000 ![1, 0] · slices_S2x1600000_S1x1600000_1_0),
    reshape main_v2 main_v3 rfl shapeCasts_S1x1600000_S1600000,
    nullary main_cst (constant S_ .f32 0x3F800000#32),
    unary main_cst main_v4 (broadcastInDim S1600000 ![] bcast_S_S1600000),
    nullary main_cst_0 (constant S_ .f32 0x00000000#32),
    unary main_cst_0 main_v5 (broadcastInDim S100000 ![] bcast_S_S100000),
    unary main_v3 main_v6 (broadcastInDim S1600000x1 ![0] bcast_S1600000_S1600000x1_0),
    ternary main_v5 main_v6 main_v4 main_v7 (fun x i u => Host.scatterAdd scatter_S100000_S1600000x1_S1600000_n_0_0_1 x i u),
    nullary main_cst_1 (constant S_ .f32 0x3F800000#32),
    unary main_cst_1 main_v8 (broadcastInDim S100000 ![] bcast_S_S100000),
    binary main_v7 main_v8 main_v9 addf,
    unary main_v9 main_v10 Host.rsqrt,
    binary main_arg0 main_arg1 main_v11 (fun l r => Host.dotGeneral dot_S100000x128_S128x64_S100000x64_1_0_0_1_n_n none l r),
    nullary main_c (constantI S_ 32 0#32),
    unary main_c main_v12 (broadcastInDim S1600000 ![] bcast_S_S1600000),
    binary main_v1 main_v12 main_v13 (cmpi .slt),
    nullary main_c_2 (constantI S_ 32 100000#32),
    unary main_c_2 main_v14 (broadcastInDim S1600000 ![] bcast_S_S1600000),
    binary main_v1 main_v14 main_v15 addi,
    ternary main_v13 main_v15 main_v1 main_v16 select,
    unary main_v16 main_v17 (broadcastInDim S1600000x1 ![0] bcast_S1600000_S1600000x1_0),
    binary main_v10 main_v17 main_v18 (fun x i => Host.gather gather_S100000_S1600000x1_S1600000_n_0_n_n_0_1_1 x i),
    nullary main_c_3 (constantI S_ 32 0#32),
    unary main_c_3 main_v19 (broadcastInDim S1600000 ![] bcast_S_S1600000),
    binary main_v3 main_v19 main_v20 (cmpi .slt),
    nullary main_c_4 (constantI S_ 32 100000#32),
    unary main_c_4 main_v21 (broadcastInDim S1600000 ![] bcast_S_S1600000),
    binary main_v3 main_v21 main_v22 addi,
    ternary main_v20 main_v22 main_v3 main_v23 select,
    unary main_v23 main_v24 (broadcastInDim S1600000x1 ![0] bcast_S1600000_S1600000x1_0),
    binary main_v10 main_v24 main_v25 (fun x i => Host.gather gather_S100000_S1600000x1_S1600000_n_0_n_n_0_1_1 x i),
    binary main_v18 main_v25 main_v26 mulf,
    nullary main_c_5 (constantI S_ 32 0#32),
    unary main_c_5 main_v27 (broadcastInDim S1600000 ![] bcast_S_S1600000),
    binary main_v1 main_v27 main_v28 (cmpi .slt),
    nullary main_c_6 (constantI S_ 32 100000#32),
    unary main_c_6 main_v29 (broadcastInDim S1600000 ![] bcast_S_S1600000),
    binary main_v1 main_v29 main_v30 addi,
    ternary main_v28 main_v30 main_v1 main_v31 select,
    unary main_v31 main_v32 (broadcastInDim S1600000x1 ![0] bcast_S1600000_S1600000x1_0),
    binary main_v11 main_v32 main_v33 (fun x i => Host.gather gather_S100000x64_S1600000x1_S1600000x64_1_0_n_n_0_1_164 x i),
    unary main_v26 main_v34 (broadcastInDim S1600000x1 ![0] bcast_S1600000_S1600000x1_0),
    unary main_v34 main_v35 (broadcastInDim S1600000x64 ![0, 1] bcast_S1600000x1_S1600000x64_0_1),
    binary main_v33 main_v35 main_v36 mulf,
    nullary main_cst_7 (constant S_ .f32 0x00000000#32),
    unary main_cst_7 main_v37 (broadcastInDim S100000x64 ![] bcast_S_S100000x64),
    unary main_v3 main_v38 (broadcastInDim S1600000x1 ![0] bcast_S1600000_S1600000x1_0),
    ternary main_v37 main_v38 main_v36 main_v39 (fun x i u => Host.scatterAdd scatter_S100000x64_S1600000x1_S1600000x64_1_0_0_1 x i u),
    binary main_v10 main_v10 main_v40 mulf,
    unary main_v40 main_v41 (broadcastInDim S100000x1 ![0] bcast_S100000_S100000x1_0),
    unary main_v41 main_v42 (broadcastInDim S100000x64 ![0, 1] bcast_S100000x1_S100000x64_0_1),
    binary main_v11 main_v42 main_v43 mulf,
    binary main_v39 main_v43 main_v44 addf,
    unary main_arg2 main_v45 (broadcastInDim S1x64 ![1] bcast_S64_S1x64_1),
    unary main_v45 main_v46 (broadcastInDim S100000x64 ![0, 1] bcast_S1x64_S100000x64_0_1),
    binary main_v44 main_v46 main_v47 addf ]

/-- The unit's fifteen operations over its call's buffers, its argument the pre-activation's buffer: two comparisons
    against the broadcast zero, the inner choice (its scalar zero converted to its own type and broadcast), expm1, the
    product with the broadcast one, and the outer choice, which writes the program's result. -/
abbrev opsElu : List (HloOp τ sig (Elt F)) :=
  [ TRef.nullary main_call0.cst (constant S_ .f32 0x00000000#32),
    TRef.unary main_call0.cst main_call0.v0 (broadcastInDim S100000x64 ![] bcast_S_S100000x64),
    TRef.binary (.of main_v47) main_call0.v0 main_call0.v1 (cmpf .ogt),
    TRef.nullary main_call0.cst_0 (constant S_ .f32 0x00000000#32),
    TRef.unary main_call0.cst_0 main_call0.v2 (broadcastInDim S100000x64 ![] bcast_S_S100000x64),
    TRef.binary (.of main_v47) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x64 ![] bcast_S_S100000x64),
    TRef.ternary main_call0.v3 main_call0.call0.v1 (.of main_v47) main_call0.call0.v2 select,
    TRef.unary main_call0.call0.v2 main_call0.v5 Host.expm1,
    TRef.nullary main_call0.cst_2 (constant S_ .f32 0x3F800000#32),
    TRef.unary main_call0.cst_2 main_call0.v6 (broadcastInDim S100000x64 ![] bcast_S_S100000x64),
    TRef.binary main_call0.v6 main_call0.v5 main_call0.v7 mulf,
    TRef.ternary main_call0.v1 (.of main_v47) main_call0.v7 main_call0.call1.v0 select ]

/-- The whole program: the main line, then the unit in the place of its call. -/
abbrev ops : List (HloOp τ sig (Elt F)) := opsMain ++ opsElu

set_option maxRecDepth 4096 in
/-- The program is that list run in order: the unit's body and the two choices' bodies unfolded where they are called,
    sequencing reassociated. -/
theorem main_eq (c : Dev nD) : main (F := F) c = seq ops := by
  rw [show (seq ops : Prog (TpuEff nD τ sig (Elt F) _ .tc) PUnit) = seq opsMain >>= fun _ => seq opsElu from seq_append _ _]
  simp only [main, fn_elu.body, fn_where.body, fn_where_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem main_sub : (opsMain : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., binary_bufs_sub .., unary_bufs_sub .., unary_bufs_sub .., binary_bufs_sub ..,
    binary_bufs_sub .., unary_bufs_sub .., unary_bufs_sub .., binary_bufs_sub ..⟩

theorem elu_sub : (opsElu : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

theorem ops_sub : (ops : List (HloOp τ sig (Elt F))).Forall fun op => op.bufs ⊆ tcRefs τ sig :=
  List.forall_iff_forall_mem.mpr fun op h =>
    (List.mem_append.mp h).elim (List.forall_iff_forall_mem.mp main_sub op) (List.forall_iff_forall_mem.mp elu_sub op)

/-- The contents after two lines run one after the other: the second's, from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The result as one function of the arguments -/

/-- The exponential linear unit as the reference's last operations compute it from the pre-activation `z`: `z` where
    `z > 0`, and elsewhere `1 · expm1 (0 where z > 0, else z)`. -/
def eluHost (z : FVec Ideal S100000x64 .f32) : FVec Ideal S100000x64 .f32 :=
  select (cmpf .ogt z (broadcastInDim S100000x64 ![] bcast_S_S100000x64 (constant S_ .f32 0x00000000#32))) z
    (mulf (broadcastInDim S100000x64 ![] bcast_S_S100000x64 (constant S_ .f32 0x3F800000#32))
      (Host.expm1
        (select (cmpf .ogt z (broadcastInDim S100000x64 ![] bcast_S_S100000x64 (constant S_ .f32 0x00000000#32)))
          (broadcastInDim S100000x64 ![] bcast_S_S100000x64 (constant S_ .f32 0x00000000#32)) z)))

/-- What the unit is applied to: with `h` the host's product of `x` and `w`, `s` and `d` the edge list's two rows and
    `v` the normalisation, (sum over edges + self-loop term) + bias, the bias broadcast first to one row and then down
    the rows. -/
def preAct (x : FVec Ideal S100000x128 .f32) (w : FVec Ideal S128x64 .f32) (b : FVec Ideal S64 .f32) (e : IVec S2x1600000 32) :
    FVec Ideal S100000x64 .f32 :=
  addf
    (addf
      (Cert.Gcn.agg (Host.dotGeneral dot_S100000x128_S128x64_S100000x64_1_0_0_1_n_n none x w) (Cert.Gcn.srcCol e) (Cert.Gcn.dstCol e)
        (Cert.Gcn.dinv (F := Ideal) (Cert.Gcn.dstCol e)))
      (Cert.Gcn.selfTerm (Host.dotGeneral dot_S100000x128_S128x64_S100000x64_1_0_0_1_n_n none x w) (Cert.Gcn.dinv (F := Ideal) (Cert.Gcn.dstCol e))))
    (broadcastInDim S100000x64 ![0, 1] bcast_S1x64_S100000x64_0_1 (broadcastInDim S1x64 ![1] bcast_S64_S1x64_1 b))

/-- The reference's result as one function of its four argument arrays, at the extended reals: the unit of `preAct`. -/
def refOut (x : FVec Ideal S100000x128 .f32) (w : FVec Ideal S128x64 .f32) (b : FVec Ideal S64 .f32) (e : IVec S2x1600000 32) :
    FVec Ideal S100000x64 .f32 :=
  eluHost (preAct x w b e)

attribute [local irreducible] Host.scatterAdd Host.gather in
set_option maxRecDepth 8192 in
/-- The main line leaves the pre-activation's buffer at `preAct` of the arguments' contents: each operation's result at
    its own buffer is its function of its operands' contents, and the composed term is `preAct`'s body once the shared
    part's names are unfolded (the two programs' dimension records have equal fields). The scatters and the gathers stay
    folded: the equation never looks inside them. -/
theorem pre_eq (V : Valuation τ sig (Elt Ideal)) :
    after (opsMain (F := Ideal)) V (main_v47 : DevRef τ sig)
      = preAct (V (main_arg0 : DevRef τ sig)) (V (main_arg1 : DevRef τ sig)) (V (main_arg2 : DevRef τ sig))
          (V (main_arg3 : DevRef τ sig)) := by
  after_results_simp
  rfl

/-- The unit's operations leave the result buffer at `eluHost` of the pre-activation buffer's contents, whatever those
    are. -/
theorem tail_eq (W : Valuation τ sig (Elt Ideal)) :
    after (opsElu (F := Ideal)) W (main_v48 : DevRef τ sig) = eluHost (W (main_v47 : DevRef τ sig)) := by
  after_results_simp
  rfl

/-- The fold of all the operations at the result buffer is `refOut` of the arguments' contents. -/
theorem out_eq (V : Valuation τ sig (Elt Ideal)) :
    after (ops (F := Ideal)) V (main_v48 : DevRef τ sig)
      = refOut (V (main_arg0 : DevRef τ sig)) (V (main_arg1 : DevRef τ sig)) (V (main_arg2 : DevRef τ sig))
          (V (main_arg3 : DevRef τ sig)) := by
  rw [after_append, tail_eq, pre_eq]
  rfl

/-- No operation writes an argument's buffer. -/
theorem arg0_eq (V : Valuation τ sig (Elt Ideal)) :
    after (ops (F := Ideal)) V (main_arg0 : DevRef τ sig) = V (main_arg0 : DevRef τ sig) := by
  rw [after_append]; after_results_simp
theorem arg1_eq (V : Valuation τ sig (Elt Ideal)) :
    after (ops (F := Ideal)) V (main_arg1 : DevRef τ sig) = V (main_arg1 : DevRef τ sig) := by
  rw [after_append]; after_results_simp
theorem arg2_eq (V : Valuation τ sig (Elt Ideal)) :
    after (ops (F := Ideal)) V (main_arg2 : DevRef τ sig) = V (main_arg2 : DevRef τ sig) := by
  rw [after_append]; after_results_simp
theorem arg3_eq (V : Valuation τ sig (Elt Ideal)) :
    after (ops (F := Ideal)) V (main_arg3 : DevRef τ sig) = V (main_arg3 : DevRef τ sig) := by
  rw [after_append]; after_results_simp

/-- On every device, from any memory with zero counters: every weakly fair execution of the reference terminates with the
    result buffer at `refOut` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v48)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v48).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

/-! ## The result read at an index -/

/-- The host's product is x·W index by index: the sum over the one contracted axis, re-indexed by its coordinate. -/
theorem hostFeat_eq (x : FVec Ideal S100000x128 .f32) (w : FVec Ideal S128x64 .f32) :
    Host.dotGeneral dot_S100000x128_S128x64_S100000x64_1_0_0_1_n_n none x w = Cert.Gcn.feat x w := by
  funext j
  obtain ⟨p, q, rfl⟩ : ∃ p q, j = ix2 p q := ⟨j 0, j 1, eq_ix2 j⟩
  exact (Ideal.dotGeneral_apply _ _ _ x w _).trans
    (Cert.HostRead.dot_apply dot_S100000x128_S128x64_S100000x64_1_0_0_1_n_n rfl rfl rfl rfl rfl rfl x w p q)

/-- The reference's unit at an element is `eluR` of the element. -/
theorem eluHost_apply (z : FVec Ideal S100000x64 .f32) (j : S100000x64.Idx) : eluHost z j = Cert.LibElu.eluR (z j) :=
  Cert.LibElu.reference_term_eq (z j)

/-- The bias, broadcast to one row and then down the rows, read at (p, q) is its entry q. -/
theorem bias_apply (b : FVec Ideal S64 .f32) (p : Fin 100000) (q : Fin 64) :
    broadcastInDim S100000x64 ![0, 1] bcast_S1x64_S100000x64_0_1 (broadcastInDim S1x64 ![1] bcast_S64_S1x64_1 b) (ix2 p q)
      = b (ix1 q) :=
  (broadcastInDim_apply _ _ _ (ix2 p q) (ix2 (0 : Fin 1) q) (fun a => by
      match a with
      | ⟨0, _⟩ => rfl
      | ⟨1, _⟩ => rfl)).trans
    (broadcastInDim_apply _ _ _ (ix2 (0 : Fin 1) q) (ix1 q) (fun a => by
      match a with
      | ⟨0, _⟩ => rfl))

/-- The reference's result read at (p, q): the unit, in the reference's spelling, of (aggregate + self-loop term) + bias. -/
theorem refOut_apply (x : FVec Ideal S100000x128 .f32) (w : FVec Ideal S128x64 .f32) (b : FVec Ideal S64 .f32)
    (e : IVec S2x1600000 32) (p : Fin 100000) (q : Fin 64) :
    refOut x w b e (ix2 p q)
      = Cert.LibElu.eluR ((Cert.Gcn.agg (Cert.Gcn.feat x w) (Cert.Gcn.srcCol e) (Cert.Gcn.dstCol e)
              (Cert.Gcn.dinv (F := Ideal) (Cert.Gcn.dstCol e)) (ix2 p q)
            + Cert.Gcn.selfTerm (Cert.Gcn.feat x w) (Cert.Gcn.dinv (F := Ideal) (Cert.Gcn.dstCol e)) (ix2 p q))
          + b (ix1 q)) := by
  unfold refOut preAct
  rw [eluHost_apply, hostFeat_eq, addf_apply, addf_apply, bias_apply]

end Cert.ReferenceIdeal.Hand

end
-- ==== Proof.lean ====
/- A graph-convolution layer with self-loops (symmetric degree normalisation), a bias and the exponential linear unit,
   computed two ways over the extended reals.

   Both programs form v = (in-degree + 1)^(-1/2) from the edge list, h = x·W, the sum over edges
   Σ_{e : target e = r} h (source e, q) · (v (source e) · v (target e)) and the self-loop term h (r, q) · (v r · v r) with the
   same array operations, and those are carried here as functions of h and of the edge list that are never opened
   (Proof/Mid.lean). They differ in two places only.
   * h = x·W. One program multiplies row blocks of 5000 rows by W on the matrix unit after narrowing both to bf16, into a
     zero accumulator; the other takes the whole product at once. Over the extended reals a change of float format is
     the identity and either product is, at (r, q), the sum over the 128 features of x (r, k) · W (k, q)
     (Proof/Reg0.lean for the blocks, Proof/RefRun.lean for the whole product).
   * The last step. One program adds aggregate, self-loop term and bias row in a second blocked pass and takes
     "z where z > 0, else e^z − 1"; the other adds the three whole arrays and takes
     "z where z > 0, else 1 · expm1 (0 where z > 0, else z)". With expm1 z = e^z − 1, the inner choice equal to z exactly
     where the outer one looks at it, and 1 the unit of the product at every extended real, these are one function of z on
     all of [−∞, +∞] (Proof/LibElu.lean); the sums are grouped the same way, (aggregate + self-loop term) + bias.
   So no law is used that could fail at an infinity, and the precondition (finite inputs) is never opened.

   The kernel program's result buffer is read off the run of its four segments (Proof/KRun.lean), each call's result array
   being the whole-array function its blocks tile (Proof/Reg0.lean, Proof/Reg1.lean) and the operations between the calls
   read back through (Proof/KValue.lean); the reference's run is Proof/RefRun.lean. -/
import proofs.«174105_j60567628808330_1_alg».proof.Defs
import proofs.«174105_j60567628808330_1_alg».proof.Proof.Gen.Kernel
import proofs.«174105_j60567628808330_1_alg».proof.Proof.Gen.Kernel.Skeleton
import proofs.«174105_j60567628808330_1_alg».proof.Proof.Gen.Kernel.Launch
import proofs.«174105_j60567628808330_1_alg».proof.Proof.Gen.Kernel.Points
import proofs.«174105_j60567628808330_1_alg».proof.Proof.Gen.Kernel.Frame
import proofs.«174105_j60567628808330_1_alg».proof.Proof.Gen.KernelIdeal
import proofs.«174105_j60567628808330_1_alg».proof.Proof.Gen.KernelIdeal.Skeleton
import proofs.«174105_j60567628808330_1_alg».proof.Proof.Gen.KernelIdeal.Launch
import proofs.«174105_j60567628808330_1_alg».proof.Proof.Gen.KernelIdeal.Points
import proofs.«174105_j60567628808330_1_alg».proof.Proof.Gen.KernelIdeal.Frame
import proofs.«174105_j60567628808330_1_alg».proof.Proof.Gen.ReferenceIdeal
import proofs.«174105_j60567628808330_1_alg».proof.Proof.Gen.Pre_finite_inputs
import proofs.«174105_j60567628808330_1_alg».proof.Proof.KRun
import proofs.«174105_j60567628808330_1_alg».proof.Proof.KValue
import proofs.«174105_j60567628808330_1_alg».proof.Proof.RefRun
import proofs.«174105_j60567628808330_1_alg».proof.Proof.LibElu
import Idealize.ShloMosaic.Lib.Pipeline.Value
import Idealize.ShloMosaic.Adequacy
import Idealize.ShloMosaic.Init

noncomputable section

namespace Cert.Proof

open Idealize.ShloMosaic Idealize.ShloMosaic.ValueIdx Idealize.SL.Sem

/-- The bias as a [1, 64] row, read at (0, q), is the bias at q. -/
theorem biasRow_apply (b : FVec Ideal Cert.KernelIdeal.S64 .f32) (h : Cert.KernelIdeal.S64.ShapeCasts Cert.KernelIdeal.S1x64) (q : Fin 64) :
    shapeCast Cert.KernelIdeal.S1x64 b h (ix2 (0 : Fin 1) q) = b (ix1 q) := by
  refine (shapeCast_addUnit_apply ![64] b h (ix2 (0 : Fin 1) q)).trans (congrArg b ?_)
  funext a
  match a with
  | ⟨0, _⟩ => rfl

/-- The two programs' results are one function of the four arguments: entry by entry the same sum
    (aggregate + self-loop term) + bias goes into the unit, which the two spell differently and which is one function. -/
theorem out_eq (x : FVec Ideal Cert.KernelIdeal.S100000x128 .f32) (w : FVec Ideal Cert.KernelIdeal.S128x64 .f32)
    (b : FVec Ideal Cert.KernelIdeal.S64 .f32) (e : IVec Cert.KernelIdeal.S2x1600000 32) :
    Cert.ReferenceIdeal.Hand.refOut x w b e = Cert.KernelIdeal.Through.kOut x w b e := by
  funext j
  obtain ⟨p, q, rfl⟩ : ∃ (p : Fin 100000) (q : Fin 64), j = ix2 p q := ⟨j 0, j 1, eq_ix2 j⟩
  rw [Cert.ReferenceIdeal.Hand.refOut_apply]
  unfold Cert.KernelIdeal.Through.kOut Cert.Gcn.combine
  rw [Cert.LibElu.eluK_eq_eluR_apply, biasRow_apply]

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run m ρ)

/-- Both programs end with the result buffer at `kOut` of the arguments: the kernel program by its run read back, the
    reference by its own run and `out_eq`, the arguments agreeing. -/
theorem algebraic : Cert.algebraic_KernelIdeal_ReferenceIdeal := by
  intro m ρ m' ρ' _ hagree
  refine ⟨fun c => Cert.KernelIdeal.Through.kOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Through.result_eq m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Hand.run m' ρ')
    rw [(hagree c).1, (hagree c).2.1, (hagree c).2.2.1, (hagree c).2.2.2]
    exact out_eq _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
